-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S11264x2048 : Shape := ⟨2, ![11264, 2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S8192x2048 .f32) (main_arg1 : FVec F S11264x2048 .f32) (main_arg2 : FVec F S2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S8192x2048 : Shape := ⟨2, ![8192, 2048]⟩
abbrev S11264x2048 : Shape := ⟨2, ![11264, 2048]⟩
abbrev S2048x5632 : Shape := ⟨2, ![2048, 5632]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 4
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S2048x5632, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x256, .f32⟩
  | .local _ .vmem, ⟨7, _⟩ => ⟨S2048x256, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 22], ![false, false]⟩

def k0_cond2 (i : grid0.Coords) : BitVec 1 :=
  let arg1 : BitVec 32 := BitVec.ofNat 32 (i 1).val
  let c21_i32 : BitVec 32 := 21#32
  let v23 : BitVec 1 := Scalar.cmpi .eq arg1 c21_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  dot_S256x2048_S256x2048_S256x256_1_1_0_0_n_n_wf : DotDims.WF S256x2048 S256x2048 S256x256 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11264x2048.size a
  hwx0_1 : ∀ i : grid0.Coords, EltTy.bits .f32 = 32 ∨ (Rect.block (s := S11264x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11264x2048.size a
  hwx0_2 : ∀ i : grid0.Coords, EltTy.bits .f32 = 32 ∨ (Rect.block (s := S11264x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x5632.size a
  hwx0_3 : ∀ i : grid0.Coords, EltTy.bits .f32 = 32 ∨ (Rect.block (s := S2048x5632) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S11264x2048 : Shape := ⟨2, ![11264, 2048]⟩
abbrev S2048x5632 : Shape := ⟨2, ![2048, 5632]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S2048x5632, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8192x11264_S8192x5632_0_0 : S8192x11264.Slices ![0, 0] S8192x5632
  slices_S8192x11264_S8192x5632_0_5632 : S8192x11264.Slices ![0, 5632] S8192x5632
  bcast_S_S8192x5632 : S_.BroadcastsInDim S8192x5632 (![] : Fin 0 → Fin S8192x5632.rank)
  dot_S8192x2048_S11264x2048_S8192x11264_1_1_0_0_n_n_wf : DotDims.WF S8192x2048 S11264x2048 S8192x11264 [1] [1] [0] [0] [] []
  dot_S8192x5632_S2048x5632_S8192x2048_1_1_0_0_n_n_wf : DotDims.WF S8192x5632 S2048x5632 S8192x2048 [1] [1] [0] [0] [] []

variable [Facts₀]

def dot_S8192x2048_S11264x2048_S8192x11264_1_1_0_0_n_n : DotDims S8192x2048 S11264x2048 S8192x11264 where
  lhsContracting := [1]
  rhsContracting := [1]
  lhsNonContracting := [0]
  rhsNonContracting := [0]
  lhsBatch := []
  rhsBatch := []
  wf := dot_S8192x2048_S11264x2048_S8192x11264_1_1_0_0_n_n_wf
def dot_S8192x5632_S2048x5632_S8192x2048_1_1_0_0_n_n : DotDims S8192x5632 S2048x5632 S8192x2048 where
  lhsContracting := [1]
  rhsContracting := [1]
  lhsNonContracting := [0]
  rhsNonContracting := [0]
  lhsBatch := []
  rhsBatch := []
  wf := dot_S8192x5632_S2048x5632_S8192x2048_1_1_0_0_n_n_wf

class Facts : Prop extends Facts₀ where

variable [Facts]
-- ==== Proof.K.Data.lean ====
/-
  The fused SwiGLU expert kernel: what the pipeline's proof is told about it, at any float instance.

  The grid is 32 row blocks of 256 tokens by 22 tiles of 256 hidden units, the tile index running fastest
  (point `t` is row block `t / 22`, tile `t % 22`).  At every point the body reads four input blocks — 256 rows of
  `x`, the tile's 256 gate rows and 256 up rows of the projection matrix (two windows on ONE array), and 256 columns
  of the down matrix — and adds the tile's contribution to an accumulator kept in a scratch buffer; the accumulator
  is zeroed at tile 0 and copied to the result's block at tile 21.

  * `acc m c n`: the accumulator after the first `n` points: the body's own term `k0_pay2` of the point's four blocks
    and of the accumulator before (the zeros `k0_pay1` when the point is a tile 0);
  * `dats`: the input windows' staging buffers are left as found, the result's holds the accumulator after a
    tile 21, the scratch holds `acc` between the points of one row block and anything before a tile 0; the two
    windows on the projection matrix hold half of it each.
-/
import proofs.«178716_j7808250544398_1_alg».proof.Proof.Gen.Kernel.Launch
import proofs.«178716_j7808250544398_1_alg».proof.Proof.Gen.Kernel.Points
import proofs.«178716_j7808250544398_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The kernel calls nothing with a variant. -/
abbrev 𝒱₀ : Variants := Variants.none

local notation "𝕄" => MT nD τ sig Unit (Elt F) ℕ (UR sig nD τ) ℕ

variable (m : (ℓ : Loc nD τ sig) → Buf (Elt F) ℓ)

/-- Core `c`'s buffers when the region is entered: as launched (the program is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal shapes: the token rows, the gate rows, the up rows, the
    down matrix's columns. -/
abbrev xblk (c : Dev nD) (t : Fin cfg0.N) : Vec F S256x2048 .f32 := iblk m c 0 t
abbrev gblk (c : Dev nD) (t : Fin cfg0.N) : Vec F S256x2048 .f32 := iblk m c 1 t
abbrev ublk (c : Dev nD) (t : Fin cfg0.N) : Vec F S256x2048 .f32 := iblk m c 2 t
abbrev dblk (c : Dev nD) (t : Fin cfg0.N) : Vec F S2048x256 .f32 := iblk m c 3 t

/-- The accumulator after the first `n` points: point `n` adds its tile's contribution to what the point before
    left, or to the zeros when it is the first tile of its row block. -/
def acc (c : Dev nD) : ℕ → FVec F S256x2048 .f32
  | 0 => k0_pay1
  | n + 1 => if h : n < cfg0.N then
      k0_pay2 (xblk m c ⟨n, h⟩) (gblk m c ⟨n, h⟩) (ublk m c ⟨n, h⟩) (dblk m c ⟨n, h⟩) (if n % 22 = 0 then k0_pay1 else acc c n)
    else acc c n

theorem acc_succ (c : Dev nD) (t : Fin cfg0.N) :
    acc m c (t.val + 1) = k0_pay2 (xblk m c t) (gblk m c t) (ublk m c t) (dblk m c t) (if t.val % 22 = 0 then k0_pay1 else acc m c t.val) := by
  rw [acc.eq_2]; exact dif_pos t.isLt

/-- The scratch buffer the accumulator lives in. -/
abbrev scr : Memref sig .tc .vmem S256x2048 .f32 := Memref.whole cc0_scratch0

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c (t.val + 1)
  Φ t := iprop(∃ X, owns (c : Thread nD τ) scr fullShare X ∗ ⌜t.val % 22 ≠ 0 → X = acc m c t.val⌝)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc m c (t.val + 1) := by dsimp only [dats]

theorem Φ_eq (c : Dev nD) (t : Fin (cfg0.N + 1)) :
    (dats m 0 c).Φ t = iprop(∃ X, owns (c : Thread nD τ) scr fullShare X ∗ ⌜t.val % 22 ≠ 0 → X = acc m c t.val⌝) := rfl

end Cert.Kernel.Hand

end
-- ==== Proof.K.Body.lean ====
/-
  The body at one grid point.

  At every point the body reads the token block, the gate rows, the up rows and the down columns from their staging
  buffers, leaves those buffers as it found them, and replaces the accumulator `a` in the scratch buffer by
  `k0_pay2 x g u d a`: at a tile 0 it first overwrites the scratch with the zeros `k0_pay1`, so `a` is the zeros there;
  at a tile 21 it then copies the new accumulator to the result's staging buffer, which it otherwise does not touch.
  Three cases of the two tests on the tile index (a tile 0, a tile 21, a tile between); the grid has 22 tiles, so no
  point is both.  Each store goes through the whole-buffer rectangle, so the buffer afterwards reads as the stored
  value, and each load through the same rectangle reads the buffer.
-/
import proofs.«178716_j7808250544398_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- The tile-0 test, as the kernel computes it from the grid point. -/
def isFirst (i : grid0.Coords) : Prop :=
  Scalar.cmpi .ne (Scalar.extui (Scalar.cmpi .eq (BitVec.ofNat 32 (i 1).val) 0#32)) 0#32 = 1#1

/-- The whole-buffer rectangle's offsets are zero. -/
theorem off0 : (![0, 0] : Fin 2 → ℕ) = fun _ => 0 := funext fun a => by fin_cases a <;> rfl

/-- The whole-buffer rectangles of the two block shapes. -/
abbrev rA := Rect.unit (s := S256x2048) ![0, 0] S256x2048.size inb_S256x2048_S256x2048_0_0
abbrev rD := Rect.unit (s := S2048x256) ![0, 0] S2048x256.size inb_S2048x256_S2048x256_0_0

/-- One store through the whole-buffer rectangle covers every index. -/
theorem cover_rA (w : Vec F S256x2048 .f32) (y : S256x2048.Idx) :
    ∃ pc ∈ ([⟨rA, w⟩] : List (View.Piece (Elt F) S256x2048 .f32)), y ∈ pc.1.set :=
  View.cover_of_tiled [⟨rA, w⟩] S256x2048.size (by rfl) y

/-- and so does a list of stores whose last one went through it. -/
theorem cover_cons (w : Vec F S256x2048 .f32) (L : List (View.Piece (Elt F) S256x2048 .f32)) (y : S256x2048.Idx) :
    ∃ pc ∈ ((⟨rA, w⟩ : View.Piece (Elt F) S256x2048 .f32) :: L), y ∈ pc.1.set := by
  obtain ⟨p, hp, hy⟩ := cover_rA w y
  exact ⟨p, List.mem_cons.mpr (Or.inl (List.mem_singleton.mp hp)), hy⟩

/-- A buffer whose last store was whole reads as that store's value, whatever was stored before. -/
theorem read_store2 (v : Memref sig .tc .vmem S256x2048 .f32) (f : BufTy.Contents (Elt F) v.view.ty) (w : Vec F S256x2048 .f32)
    (L : List (View.Piece (Elt F) S256x2048 .f32)) :
    v.view.read (Elt F) (v.view.writes (Elt F) f ((⟨rA, w⟩ : View.Piece (Elt F) S256x2048 .f32) :: L)) = w := by
  rw [View.read_writes_eq_canon _ _ _ (cover_cons _ _), View.canon_cons_unit_zero off0]

/-- A buffer stored whole reads as the stored value. -/
theorem read_store (v : Memref sig .tc .vmem S256x2048 .f32) (f : BufTy.Contents (Elt F) v.view.ty) (w : Vec F S256x2048 .f32) :
    v.view.read (Elt F) (v.view.writes (Elt F) f [⟨rA, w⟩]) = w := read_store2 v f w []

/-- A load through the whole-buffer rectangle reads the buffer. -/
theorem load_whole (v : Memref sig .tc .vmem S256x2048 .f32) (f : BufTy.Contents (Elt F) v.view.ty) :
    View.readAt (Elt F) v.view rA.toLoadRect f = v.view.read (Elt F) f := by
  rw [View.readAt_eq_ld, View.ld_unit_zero off0]
theorem load_wholeD (v : Memref sig .tc .vmem S2048x256 .f32) (f : BufTy.Contents (Elt F) v.view.ty) :
    View.readAt (Elt F) v.view rD.toLoadRect f = v.view.read (Elt F) f := by
  rw [View.readAt_eq_ld, View.ld_unit_zero off0]

/-- The tile's payload of five whole-buffer loads is the payload of what the five buffers read as. -/
theorem pay2_loads (a2 a3 a4 a7 : Memref sig .tc .vmem S256x2048 .f32) (a5 : Memref sig .tc .vmem S2048x256 .f32)
    (f0 : BufTy.Contents (Elt F) a2.view.ty) (f1 : BufTy.Contents (Elt F) a3.view.ty) (f2 : BufTy.Contents (Elt F) a4.view.ty)
    (f3 : BufTy.Contents (Elt F) a5.view.ty) (f7 : BufTy.Contents (Elt F) a7.view.ty) :
    k0_pay2 (View.readAt (Elt F) a2.view rA.toLoadRect f0) (View.readAt (Elt F) a3.view rA.toLoadRect f1)
        (View.readAt (Elt F) a4.view rA.toLoadRect f2) (View.readAt (Elt F) a5.view rD.toLoadRect f3)
        (View.readAt (Elt F) a7.view rA.toLoadRect f7)
      = k0_pay2 (a2.view.read (Elt F) f0) (a3.view.read (Elt F) f1) (a4.view.read (Elt F) f2) (a5.view.read (Elt F) f3)
          (a7.view.read (Elt F) f7) := by
  rw [load_whole a2 f0, load_whole a3 f1, load_whole a4 f2, load_wholeD a5 f3, load_whole a7 f7]

/-- A load through the whole-buffer rectangle of what ONE store through it left reads the stored value. -/
theorem readCov_whole (v : Memref sig .tc .vmem S256x2048 .f32) (z : Vec F S256x2048 .f32) :
    v.view.readCov [(⟨rA, z⟩ : View.Piece (Elt F) S256x2048 .f32)] rA.toLoadRect = z :=
  View.readCov_unit_zero (S := S256x2048) v.view off0 inb_S256x2048_S256x2048_0_0 z

/-- The same when the accumulator was overwritten with `z` just before: its load reads `z`. -/
theorem pay2_loads_zeroed (a2 a3 a4 a7 : Memref sig .tc .vmem S256x2048 .f32) (a5 : Memref sig .tc .vmem S2048x256 .f32)
    (f0 : BufTy.Contents (Elt F) a2.view.ty) (f1 : BufTy.Contents (Elt F) a3.view.ty) (f2 : BufTy.Contents (Elt F) a4.view.ty)
    (f3 : BufTy.Contents (Elt F) a5.view.ty) (z : Vec F S256x2048 .f32) :
    k0_pay2 (View.readAt (Elt F) a2.view rA.toLoadRect f0) (View.readAt (Elt F) a3.view rA.toLoadRect f1)
        (View.readAt (Elt F) a4.view rA.toLoadRect f2) (View.readAt (Elt F) a5.view rD.toLoadRect f3)
        (a7.view.readCov [(⟨rA, z⟩ : View.Piece (Elt F) S256x2048 .f32)] rA.toLoadRect)
      = k0_pay2 (a2.view.read (Elt F) f0) (a3.view.read (Elt F) f1) (a4.view.read (Elt F) f2) (a5.view.read (Elt F) f3) z := by
  rw [load_whole a2 f0, load_whole a3 f1, load_whole a4 f2, load_wholeD a5 f3, readCov_whole a7 z]

/-- A tile between the first and the last: the accumulator `g` becomes `k0_pay2 x0 x1 x2 x3 g`. -/
theorem kernel_mid (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : ¬ isFirst i) (h2 : ¬ k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
            ∗ owns (c : Thread nD τ) arg7 fullShare (k0_pay2 x0 x1 x2 x3 g)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  rw [read_store]
  exact pay2_loads arg2 arg3 arg4 arg7 arg5 f0 f1 f2 f3 f7

/-- A tile 0: the scratch is zeroed first, so the accumulator becomes `k0_pay2 x0 x1 x2 x3 k0_pay1` whatever it held. -/
theorem kernel_first (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : isFirst i) (h2 : ¬ k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
            ∗ owns (c : Thread nD τ) arg7 fullShare (k0_pay2 x0 x1 x2 x3 k0_pay1)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [read_store2]
  exact pay2_loads_zeroed arg2 arg3 arg4 arg7 arg5 f0 f1 f2 f3 k0_pay1

/-- A tile 21: the accumulator `g` becomes `k0_pay2 x0 x1 x2 x3 g`, and the result's buffer is overwritten with it. -/
theorem kernel_last (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : ¬ isFirst i) (h2 : k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 g)
            ∗ owns (c : Thread nD τ) arg7 fullShare (k0_pay2 x0 x1 x2 x3 g)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr
    swap; · iexact H6
    ipureintro
    sl_unfold_words
    rw [read_store]
    refine (readCov_whole arg7 _).trans ?_
    exact pay2_loads arg2 arg3 arg4 arg7 arg5 f0 f1 f2 f3 f7
  iexists _; isplitr
  swap; · iexact H7
  ipureintro
  sl_unfold_words
  rw [read_store]
  exact pay2_loads arg2 arg3 arg4 arg7 arg5 f0 f1 f2 f3 f7

/-! ## The body at a grid point -/

variable (m : (ℓ : Loc nD τ sig) → Buf (Elt F) ℓ)

/-- The two tile tests over the grid: a point is a tile 0 when `t % 22 = 0` and a tile 21 when `t % 22 = 21`. -/
theorem first_iff : ∀ t : Fin cfg0.N, isFirst (cfg0.grid.coords t) ↔ t.val % 22 = 0 :=
  (by unfold isFirst; decide +kernel : ∀ t : Fin grid0.N, isFirst (grid0.coords t) ↔ t.val % 22 = 0)
theorem last_iff : ∀ t : Fin cfg0.N, k0_cond2 (cfg0.grid.coords t) = 1#1 ↔ t.val % 22 = 21 :=
  (by decide +kernel : ∀ t : Fin grid0.N, k0_cond2 (grid0.coords t) = 1#1 ↔ t.val % 22 = 21)

/-- Each input window's staging buffer holds its block at every point, fetched there or not: unfetched, the block
    index has not moved, and the body leaves the buffer as it found it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result's window is idle, and not written back, except at a tile 21. -/
theorem idle4_of_not_last (t : Fin cfg0.N) (h : ¬ k0_cond2 (cfg0.grid.coords t) = 1#1) : cfg0.idle 4 (cfg0.grid.coords t) = true := by
  show (!(k0_cond2 (cfg0.grid.coords t) == 1#1)) = true
  rw [Bool.not_eq_true', beq_eq_false_iff_ne]; exact h
theorem idle4_of_last (t : Fin cfg0.N) (h : k0_cond2 (cfg0.grid.coords t) = 1#1) : cfg0.idle 4 (cfg0.grid.coords t) = false := by
  show (!(k0_cond2 (cfg0.grid.coords t) == 1#1)) = false
  rw [h]; rfl
theorem flush4_false (t : Fin cfg0.N) (h : t.val % 22 ≠ 21) : (cfg0.win 4).flush t = false := by
  rw [Bool.eq_false_iff]; exact fun hf => h ((flush0_4 t).1 hf)

/-- What the result's window is left at, at a tile 21: the new accumulator. -/
theorem leaves4_last (c : Dev nD) (t : Fin cfg0.N) (h : k0_cond2 (cfg0.grid.coords t) = 1#1) :
    ((dats m 0 c).leavesExact 4 t : sProp 𝕄) = owns (c : Thread nD τ) (st0_4 t) fullShare (acc m c (t.val + 1)) := by
  unfold Dat.leavesExact; rw [idle4_of_last t h, after0_4]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The body at any point, by the point's tile: the input buffers hold their blocks, the scratch holds the
    accumulator of the points before (anything, before a tile 0), and the case's triple applies. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, Φ_eq, Φ_eq]
  rcases (by omega : t.val % 22 = 0 ∨ t.val % 22 = 21 ∨ (t.val % 22 ≠ 0 ∧ t.val % 22 ≠ 21)) with h0 | h21 | ⟨hn0, hn21⟩
  · -- a tile 0
    have hf : isFirst (grid0.coords t) := (first_iff t).2 h0
    have hl : ¬ k0_cond2 (grid0.coords t) = 1#1 := fun h => by have := (last_iff t).1 h; omega
    rw [(dats m 0 c).leavesExact_idle 4 t (idle4_of_not_last t hl) (flush4_false t (by omega))]
    iintro ⟨⟨%X, HS, %hX⟩, Ho, ⟨%d0, H0⟩, ⟨%d1, H1⟩, ⟨%d2, H2⟩, ⟨%d3, H3⟩, ⟨%d4, H4⟩⟩
    iapply (kernel_first c (grid0.coords t) _ _ _ _ _ _ _ _ _ _ scr (Memref.isWhole_whole _) hf hl
      (iblk m c 0 t) (iblk m c 1 t) (iblk m c 2 t) (iblk m c 3 t) ((dats m 0 c).before 4 t d4) X _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      rw [acc_succ, if_pos h0]
    isplitl [Ho]; · iexact Ho
    isplitl [H0]; · iexact H0
    isplitl [H1]; · iexact H1
    isplitl [H2]; · iexact H2
    isplitl [H3]; · iexact H3
    iexists d4; iexact H4
  · -- a tile 21
    have hf : ¬ isFirst (grid0.coords t) := fun h => by have := (first_iff t).1 h; omega
    have hl : k0_cond2 (grid0.coords t) = 1#1 := (last_iff t).2 h21
    rw [leaves4_last m c t hl]
    iintro ⟨⟨%X, HS, %hX⟩, Ho, ⟨%d0, H0⟩, ⟨%d1, H1⟩, ⟨%d2, H2⟩, ⟨%d3, H3⟩, ⟨%d4, H4⟩⟩
    have hXe : X = acc m c t.val := hX (by show t.val % 22 ≠ 0; omega)
    subst hXe
    have hnew : k0_pay2 (xblk m c t) (gblk m c t) (ublk m c t) (dblk m c t) (acc m c t.val) = acc m c (t.val + 1) := by
      rw [acc_succ, if_neg (by omega : ¬ t.val % 22 = 0)]
    iapply (kernel_last c (grid0.coords t) _ _ _ _ _ _ _ _ _ _ scr (Memref.isWhole_whole _) hf hl
      (iblk m c 0 t) (iblk m c 1 t) (iblk m c 2 t) (iblk m c 3 t) ((dats m 0 c).before 4 t d4) (acc m c t.val) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      exact hnew
    isplitl [Ho]; · iexact Ho
    isplitl [H0]; · iexact H0
    isplitl [H1]; · iexact H1
    isplitl [H2]; · iexact H2
    isplitl [H3]; · iexact H3
    rw [← hnew]; iexact H4
  · -- a tile between
    have hf : ¬ isFirst (grid0.coords t) := fun h => hn0 ((first_iff t).1 h)
    have hl : ¬ k0_cond2 (grid0.coords t) = 1#1 := fun h => hn21 ((last_iff t).1 h)
    rw [(dats m 0 c).leavesExact_idle 4 t (idle4_of_not_last t hl) (flush4_false t hn21)]
    iintro ⟨⟨%X, HS, %hX⟩, Ho, ⟨%d0, H0⟩, ⟨%d1, H1⟩, ⟨%d2, H2⟩, ⟨%d3, H3⟩, ⟨%d4, H4⟩⟩
    have hXe : X = acc m c t.val := hX hn0
    subst hXe
    iapply (kernel_mid c (grid0.coords t) _ _ _ _ _ _ _ _ _ _ scr (Memref.isWhole_whole _) hf hl
      (iblk m c 0 t) (iblk m c 1 t) (iblk m c 2 t) (iblk m c 3 t) ((dats m 0 c).before 4 t d4) (acc m c t.val) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      rw [acc_succ, if_neg hn0]
    isplitl [Ho]; · iexact Ho
    isplitl [H0]; · iexact H0
    isplitl [H1]; · iexact H1
    isplitl [H2]; · iexact H2
    isplitl [H3]; · iexact H3
    iexists d4; iexact H4

/-- The pipeline's body obligation, at every point. -/
theorem body_obligation (c : Dev nD) : BodyObligation (dats (F := F) m 0 c) (defs₀ (F := F)) 𝒱₀ () Set.univ := fun t => by
  rw [bigSep_W0, bigSep_W0]
  exact sound_body m c t

end Cert.Kernel.Hand

end
-- ==== Proof.K.Launch.lean ====
/-
  The launch: from the body's step at every grid point to the whole run.

  The region is handed the three argument arrays and the result array whole.  The projection matrix is read through
  two windows, so its points-to is split in two halves, one per window; every other array goes to its one window
  whole.  Nothing else of the core's unscoped memory exists, the scratch buffer is the core's one scoped buffer
  besides the staging buffers, and the kernel has no semaphore of its own.  The run ends with every window's array
  at what the write-backs left.
-/
import proofs.«178716_j7808250544398_1_alg».proof.Proof.K.Data
import Idealize.ShloMosaic.Lib.Pipeline.Launch
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The windows' arrays as the region finds them: every array is a whole buffer, so window `w` holds all of its
    array's elements, at the window's share, at the launch contents. -/
theorem arrays_entry (c : Dev nD) :
    (dats m 0 c).arrays ((dats m 0 c).arrAt · 0)
      = bigSep Finset.univ fun w : Fin 5 =>
          (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The four distinct buffers behind the five windows, each whole at the full share, make the windows' holdings:
    the token matrix, the down matrix and the result go to their one window as they are; the projection matrix's
    full share is its left half and its right half, the gate window taking the one and the up window the other. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, bigSep_W0]
  unfold Pipeline.arrBufs
  rw [bigSep_eq_bigSepL_of_eq [main_arg0, main_arg1, main_arg2, main_v0] (by decide) (by decide)]
  show iprop((((c.tc : Thread nD τ).loc main_arg0) ↦{fullShare} V m c main_arg0)
        ∗ (((c.tc : Thread nD τ).loc main_arg1) ↦{fullShare} V m c main_arg1)
        ∗ (((c.tc : Thread nD τ).loc main_arg2) ↦{fullShare} V m c main_arg2)
        ∗ (((c.tc : Thread nD τ).loc main_v0) ↦{fullShare} V m c main_v0))
      ⊢ (iprop((((c.tc : Thread nD τ).loc main_arg0) ↦{fullShare} V m c main_arg0)
        ∗ (((c.tc : Thread nD τ).loc main_arg1) ↦{fullShare.left} V m c main_arg1)
        ∗ (((c.tc : Thread nD τ).loc main_arg1) ↦{fullShare.right} V m c main_arg1)
        ∗ (((c.tc : Thread nD τ).loc main_arg2) ↦{fullShare} V m c main_arg2)
        ∗ (((c.tc : Thread nD τ).loc main_v0) ↦{fullShare} V m c main_v0)) : sProp 𝕄)
  iintro ⟨H0, H1, H2, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  isplitl [H2]; · iexact H2
  iexact H3

/-- Before the first point the scratch buffer holds anything: the first point is a tile 0, where the invariant asks
    nothing of the contents. -/
theorem inv_entry (c : Dev nD) :
    iprop((emp : sProp 𝕄) ∗ Pipeline.scopedRest (Ix := Unit) (Name := ℕ) (U := UR sig nD τ) (Lvl := ℕ) (Val := Elt F) spec0 c)
      ⊢ (dats m 0 c).Φ 0 := by
  rw [scopedRest0_eq, Φ_eq]
  simp only [owns_whole]
  iintro ⟨-, ⟨%f, H⟩⟩
  iexists f
  isplitl [H]
  · iexact H
  · ipureintro; exact fun h => absurd rfl h

/-- After the last point the scratch buffer is handed back whole; what it holds is forgotten. -/
theorem inv_exit (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [scopedRest0_eq, Φ_eq]
  simp only [owns_whole]
  iintro ⟨%X, H, -⟩
  isplitr; · iempintro
  iexists X; iexact H

/-- THE RUN: every weakly fair execution of the program terminates, without a fault, with each window's array at
    the contents the write-backs leave. -/
theorem run_main (hb : ∀ c, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W,
        r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ 𝒱₀ m ρ main
    (hbody := fun c => (hb c).loose) (hne := block_pos0) (harr := arr_whole0) (hstage := stage_whole0)
    (howed := fun _ _ => rfl)
    (u₀ := Rounds.initOf (Pipeline.cells cfgs cellOf_inj) (Pipeline.launchToks cfgs cellOf_inj)) (hu₀ := BI.Entails.refl _)
    (V := V m)
    (hmain := Pipeline.hmain_region cfgs 0 defs₀ 𝒱₀ m main fun c => (main_chain c).trans rfl)
    (hsplit := arrays_split m)
    (X := fun _ => iprop(emp)) (Y := fun _ => iprop(emp)) (Z := fun _ => iprop(emp))
    (hX := fun c => by rw [unscopedRest0_eq]; iintro -; isplitr <;> iempintro)
    (hin := inv_entry m)
    (hout := inv_exit m)
    (QY := fun _ _ => True)
    (hY := fun c s' => by
      iintro ⟨-, -, HSI⟩; imodintro
      isplitr; · ipureintro; trivial
      iexact HSI)
    (hQ := fun _ h c w => (h c).1 w)

end Cert.Kernel.Hand

end
-- ==== Proof.K.Frame.lean ====
/-
  The run of the whole program and its frame.

  From the body's step at every grid point and the launch: every weakly fair execution terminates, without a fault,
  with each window's array at what the write-backs left.  An input window's array is never written back to, so the
  three argument arrays end as they began (the projection matrix is read through two windows; either tells it).
-/
import proofs.«178716_j7808250544398_1_alg».proof.Proof.K.Body
import proofs.«178716_j7808250544398_1_alg».proof.Proof.K.Launch

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- THE RUN, with the body's step supplied. -/
theorem run : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  run_main m (body_obligation m) ρ

/-- THE FRAME: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run m ρ)

end Cert.Kernel.Hand

end
-- ==== Proof.KI.Data.lean ====
/-
  The fused SwiGLU expert kernel: what the pipeline's proof is told about it, at any float instance.

  The grid is 32 row blocks of 256 tokens by 22 tiles of 256 hidden units, the tile index running fastest
  (point `t` is row block `t / 22`, tile `t % 22`).  At every point the body reads four input blocks — 256 rows of
  `x`, the tile's 256 gate rows and 256 up rows of the projection matrix (two windows on ONE array), and 256 columns
  of the down matrix — and adds the tile's contribution to an accumulator kept in a scratch buffer; the accumulator
  is zeroed at tile 0 and copied to the result's block at tile 21.

  * `acc m c n`: the accumulator after the first `n` points: the body's own term `k0_pay2` of the point's four blocks
    and of the accumulator before (the zeros `k0_pay1` when the point is a tile 0);
  * `dats`: the input windows' staging buffers are left as found, the result's holds the accumulator after a
    tile 21, the scratch holds `acc` between the points of one row block and anything before a tile 0; the two
    windows on the projection matrix hold half of it each.
-/
import proofs.«178716_j7808250544398_1_alg».proof.Proof.Gen.KernelIdeal.Launch
import proofs.«178716_j7808250544398_1_alg».proof.Proof.Gen.KernelIdeal.Points
import proofs.«178716_j7808250544398_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The kernel calls nothing with a variant. -/
abbrev 𝒱₀ : Variants := Variants.none

local notation "𝕄" => MT nD τ sig Unit (Elt F) ℕ (UR sig nD τ) ℕ

variable (m : (ℓ : Loc nD τ sig) → Buf (Elt F) ℓ)

/-- Core `c`'s buffers when the region is entered: as launched (the program is the region alone). -/
abbrev V (c : Dev nD) (b : Ref sig .tc) : Buf (Elt F) ((c : Thread nD τ).loc b) := m ((c : Thread nD τ).loc b)

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal shapes: the token rows, the gate rows, the up rows, the
    down matrix's columns. -/
abbrev xblk (c : Dev nD) (t : Fin cfg0.N) : Vec F S256x2048 .f32 := iblk m c 0 t
abbrev gblk (c : Dev nD) (t : Fin cfg0.N) : Vec F S256x2048 .f32 := iblk m c 1 t
abbrev ublk (c : Dev nD) (t : Fin cfg0.N) : Vec F S256x2048 .f32 := iblk m c 2 t
abbrev dblk (c : Dev nD) (t : Fin cfg0.N) : Vec F S2048x256 .f32 := iblk m c 3 t

/-- The accumulator after the first `n` points: point `n` adds its tile's contribution to what the point before
    left, or to the zeros when it is the first tile of its row block. -/
def acc (c : Dev nD) : ℕ → FVec F S256x2048 .f32
  | 0 => k0_pay1
  | n + 1 => if h : n < cfg0.N then
      k0_pay2 (xblk m c ⟨n, h⟩) (gblk m c ⟨n, h⟩) (ublk m c ⟨n, h⟩) (dblk m c ⟨n, h⟩) (if n % 22 = 0 then k0_pay1 else acc c n)
    else acc c n

theorem acc_succ (c : Dev nD) (t : Fin cfg0.N) :
    acc m c (t.val + 1) = k0_pay2 (xblk m c t) (gblk m c t) (ublk m c t) (dblk m c t) (if t.val % 22 = 0 then k0_pay1 else acc m c t.val) := by
  rw [acc.eq_2]; exact dif_pos t.isLt

/-- The scratch buffer the accumulator lives in. -/
abbrev scr : Memref sig .tc .vmem S256x2048 .f32 := Memref.whole cc0_scratch0

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c (t.val + 1)
  Φ t := iprop(∃ X, owns (c : Thread nD τ) scr fullShare X ∗ ⌜t.val % 22 ≠ 0 → X = acc m c t.val⌝)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc m c (t.val + 1) := by dsimp only [dats]

theorem Φ_eq (c : Dev nD) (t : Fin (cfg0.N + 1)) :
    (dats m 0 c).Φ t = iprop(∃ X, owns (c : Thread nD τ) scr fullShare X ∗ ⌜t.val % 22 ≠ 0 → X = acc m c t.val⌝) := rfl

end Cert.KernelIdeal.Hand

end
-- ==== Proof.KI.Body.lean ====
/-
  The body at one grid point.

  At every point the body reads the token block, the gate rows, the up rows and the down columns from their staging
  buffers, leaves those buffers as it found them, and replaces the accumulator `a` in the scratch buffer by
  `k0_pay2 x g u d a`: at a tile 0 it first overwrites the scratch with the zeros `k0_pay1`, so `a` is the zeros there;
  at a tile 21 it then copies the new accumulator to the result's staging buffer, which it otherwise does not touch.
  Three cases of the two tests on the tile index (a tile 0, a tile 21, a tile between); the grid has 22 tiles, so no
  point is both.  Each store goes through the whole-buffer rectangle, so the buffer afterwards reads as the stored
  value, and each load through the same rectangle reads the buffer.
-/
import proofs.«178716_j7808250544398_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UR sig nD τ) ℕ

/-- The tile-0 test, as the kernel computes it from the grid point. -/
def isFirst (i : grid0.Coords) : Prop :=
  Scalar.cmpi .ne (Scalar.extui (Scalar.cmpi .eq (BitVec.ofNat 32 (i 1).val) 0#32)) 0#32 = 1#1

/-- The whole-buffer rectangle's offsets are zero. -/
theorem off0 : (![0, 0] : Fin 2 → ℕ) = fun _ => 0 := funext fun a => by fin_cases a <;> rfl

/-- The whole-buffer rectangles of the two block shapes. -/
abbrev rA := Rect.unit (s := S256x2048) ![0, 0] S256x2048.size inb_S256x2048_S256x2048_0_0
abbrev rD := Rect.unit (s := S2048x256) ![0, 0] S2048x256.size inb_S2048x256_S2048x256_0_0

/-- One store through the whole-buffer rectangle covers every index. -/
theorem cover_rA (w : Vec F S256x2048 .f32) (y : S256x2048.Idx) :
    ∃ pc ∈ ([⟨rA, w⟩] : List (View.Piece (Elt F) S256x2048 .f32)), y ∈ pc.1.set :=
  View.cover_of_tiled [⟨rA, w⟩] S256x2048.size (by rfl) y

/-- and so does a list of stores whose last one went through it. -/
theorem cover_cons (w : Vec F S256x2048 .f32) (L : List (View.Piece (Elt F) S256x2048 .f32)) (y : S256x2048.Idx) :
    ∃ pc ∈ ((⟨rA, w⟩ : View.Piece (Elt F) S256x2048 .f32) :: L), y ∈ pc.1.set := by
  obtain ⟨p, hp, hy⟩ := cover_rA w y
  exact ⟨p, List.mem_cons.mpr (Or.inl (List.mem_singleton.mp hp)), hy⟩

/-- A buffer whose last store was whole reads as that store's value, whatever was stored before. -/
theorem read_store2 (v : Memref sig .tc .vmem S256x2048 .f32) (f : BufTy.Contents (Elt F) v.view.ty) (w : Vec F S256x2048 .f32)
    (L : List (View.Piece (Elt F) S256x2048 .f32)) :
    v.view.read (Elt F) (v.view.writes (Elt F) f ((⟨rA, w⟩ : View.Piece (Elt F) S256x2048 .f32) :: L)) = w := by
  rw [View.read_writes_eq_canon _ _ _ (cover_cons _ _), View.canon_cons_unit_zero off0]

/-- A buffer stored whole reads as the stored value. -/
theorem read_store (v : Memref sig .tc .vmem S256x2048 .f32) (f : BufTy.Contents (Elt F) v.view.ty) (w : Vec F S256x2048 .f32) :
    v.view.read (Elt F) (v.view.writes (Elt F) f [⟨rA, w⟩]) = w := read_store2 v f w []

/-- A load through the whole-buffer rectangle reads the buffer. -/
theorem load_whole (v : Memref sig .tc .vmem S256x2048 .f32) (f : BufTy.Contents (Elt F) v.view.ty) :
    View.readAt (Elt F) v.view rA.toLoadRect f = v.view.read (Elt F) f := by
  rw [View.readAt_eq_ld, View.ld_unit_zero off0]
theorem load_wholeD (v : Memref sig .tc .vmem S2048x256 .f32) (f : BufTy.Contents (Elt F) v.view.ty) :
    View.readAt (Elt F) v.view rD.toLoadRect f = v.view.read (Elt F) f := by
  rw [View.readAt_eq_ld, View.ld_unit_zero off0]

/-- The tile's payload of five whole-buffer loads is the payload of what the five buffers read as. -/
theorem pay2_loads (a2 a3 a4 a7 : Memref sig .tc .vmem S256x2048 .f32) (a5 : Memref sig .tc .vmem S2048x256 .f32)
    (f0 : BufTy.Contents (Elt F) a2.view.ty) (f1 : BufTy.Contents (Elt F) a3.view.ty) (f2 : BufTy.Contents (Elt F) a4.view.ty)
    (f3 : BufTy.Contents (Elt F) a5.view.ty) (f7 : BufTy.Contents (Elt F) a7.view.ty) :
    k0_pay2 (View.readAt (Elt F) a2.view rA.toLoadRect f0) (View.readAt (Elt F) a3.view rA.toLoadRect f1)
        (View.readAt (Elt F) a4.view rA.toLoadRect f2) (View.readAt (Elt F) a5.view rD.toLoadRect f3)
        (View.readAt (Elt F) a7.view rA.toLoadRect f7)
      = k0_pay2 (a2.view.read (Elt F) f0) (a3.view.read (Elt F) f1) (a4.view.read (Elt F) f2) (a5.view.read (Elt F) f3)
          (a7.view.read (Elt F) f7) := by
  rw [load_whole a2 f0, load_whole a3 f1, load_whole a4 f2, load_wholeD a5 f3, load_whole a7 f7]

/-- A load through the whole-buffer rectangle of what ONE store through it left reads the stored value. -/
theorem readCov_whole (v : Memref sig .tc .vmem S256x2048 .f32) (z : Vec F S256x2048 .f32) :
    v.view.readCov [(⟨rA, z⟩ : View.Piece (Elt F) S256x2048 .f32)] rA.toLoadRect = z :=
  View.readCov_unit_zero (S := S256x2048) v.view off0 inb_S256x2048_S256x2048_0_0 z

/-- The same when the accumulator was overwritten with `z` just before: its load reads `z`. -/
theorem pay2_loads_zeroed (a2 a3 a4 a7 : Memref sig .tc .vmem S256x2048 .f32) (a5 : Memref sig .tc .vmem S2048x256 .f32)
    (f0 : BufTy.Contents (Elt F) a2.view.ty) (f1 : BufTy.Contents (Elt F) a3.view.ty) (f2 : BufTy.Contents (Elt F) a4.view.ty)
    (f3 : BufTy.Contents (Elt F) a5.view.ty) (z : Vec F S256x2048 .f32) :
    k0_pay2 (View.readAt (Elt F) a2.view rA.toLoadRect f0) (View.readAt (Elt F) a3.view rA.toLoadRect f1)
        (View.readAt (Elt F) a4.view rA.toLoadRect f2) (View.readAt (Elt F) a5.view rD.toLoadRect f3)
        (a7.view.readCov [(⟨rA, z⟩ : View.Piece (Elt F) S256x2048 .f32)] rA.toLoadRect)
      = k0_pay2 (a2.view.read (Elt F) f0) (a3.view.read (Elt F) f1) (a4.view.read (Elt F) f2) (a5.view.read (Elt F) f3) z := by
  rw [load_whole a2 f0, load_whole a3 f1, load_whole a4 f2, load_wholeD a5 f3, readCov_whole a7 z]

/-- A tile between the first and the last: the accumulator `g` becomes `k0_pay2 x0 x1 x2 x3 g`. -/
theorem kernel_mid (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : ¬ isFirst i) (h2 : ¬ k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
            ∗ owns (c : Thread nD τ) arg7 fullShare (k0_pay2 x0 x1 x2 x3 g)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  rw [read_store]
  exact pay2_loads arg2 arg3 arg4 arg7 arg5 f0 f1 f2 f3 f7

/-- A tile 0: the scratch is zeroed first, so the accumulator becomes `k0_pay2 x0 x1 x2 x3 k0_pay1` whatever it held. -/
theorem kernel_first (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : isFirst i) (h2 : ¬ k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6
            ∗ owns (c : Thread nD τ) arg7 fullShare (k0_pay2 x0 x1 x2 x3 k0_pay1)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [read_store2]
  exact pay2_loads_zeroed arg2 arg3 arg4 arg7 arg5 f0 f1 f2 f3 k0_pay1

/-- A tile 21: the accumulator `g` becomes `k0_pay2 x0 x1 x2 x3 g`, and the result's buffer is overwritten with it. -/
theorem kernel_last (c : Dev nD) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x2048 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S256x2048 .f32) (harg7 : arg7.IsWhole)
    (h1 : ¬ isFirst i) (h2 : k0_cond2 i = 1#1)
    (x0 x1 x2 : Vec F S256x2048 .f32) (x3 : Vec F S2048x256 .f32) (d6 g : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d6 ∗ owns (c : Thread nD τ) arg7 fullShare g
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 g)
            ∗ owns (c : Thread nD τ) arg7 fullShare (k0_pay2 x0 x1 x2 x3 g)) -∗ K ⟨⟩))
      ⊢ wp frame (wpE (defs₀ (F := F)) 𝒱₀ c none) Set.univ (cc0__expert_kernel i arg2 harg2 arg3 harg3 arg4 harg4 arg5 harg5 arg6 harg6 arg7 harg7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  unfold isFirst at h1
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr
    swap; · iexact H6
    ipureintro
    sl_unfold_words
    rw [read_store]
    refine (readCov_whole arg7 _).trans ?_
    exact pay2_loads arg2 arg3 arg4 arg7 arg5 f0 f1 f2 f3 f7
  iexists _; isplitr
  swap; · iexact H7
  ipureintro
  sl_unfold_words
  rw [read_store]
  exact pay2_loads arg2 arg3 arg4 arg7 arg5 f0 f1 f2 f3 f7

/-! ## The body at a grid point -/

variable (m : (ℓ : Loc nD τ sig) → Buf (Elt F) ℓ)

/-- The two tile tests over the grid: a point is a tile 0 when `t % 22 = 0` and a tile 21 when `t % 22 = 21`. -/
theorem first_iff : ∀ t : Fin cfg0.N, isFirst (cfg0.grid.coords t) ↔ t.val % 22 = 0 :=
  (by unfold isFirst; decide +kernel : ∀ t : Fin grid0.N, isFirst (grid0.coords t) ↔ t.val % 22 = 0)
theorem last_iff : ∀ t : Fin cfg0.N, k0_cond2 (cfg0.grid.coords t) = 1#1 ↔ t.val % 22 = 21 :=
  (by decide +kernel : ∀ t : Fin grid0.N, k0_cond2 (grid0.coords t) = 1#1 ↔ t.val % 22 = 21)

/-- Each input window's staging buffer holds its block at every point, fetched there or not: unfetched, the block
    index has not moved, and the body leaves the buffer as it found it. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result's window is idle, and not written back, except at a tile 21. -/
theorem idle4_of_not_last (t : Fin cfg0.N) (h : ¬ k0_cond2 (cfg0.grid.coords t) = 1#1) : cfg0.idle 4 (cfg0.grid.coords t) = true := by
  show (!(k0_cond2 (cfg0.grid.coords t) == 1#1)) = true
  rw [Bool.not_eq_true', beq_eq_false_iff_ne]; exact h
theorem idle4_of_last (t : Fin cfg0.N) (h : k0_cond2 (cfg0.grid.coords t) = 1#1) : cfg0.idle 4 (cfg0.grid.coords t) = false := by
  show (!(k0_cond2 (cfg0.grid.coords t) == 1#1)) = false
  rw [h]; rfl
theorem flush4_false (t : Fin cfg0.N) (h : t.val % 22 ≠ 21) : (cfg0.win 4).flush t = false := by
  rw [Bool.eq_false_iff]; exact fun hf => h ((flush0_4 t).1 hf)

/-- What the result's window is left at, at a tile 21: the new accumulator. -/
theorem leaves4_last (c : Dev nD) (t : Fin cfg0.N) (h : k0_cond2 (cfg0.grid.coords t) = 1#1) :
    ((dats m 0 c).leavesExact 4 t : sProp 𝕄) = owns (c : Thread nD τ) (st0_4 t) fullShare (acc m c (t.val + 1)) := by
  unfold Dat.leavesExact; rw [idle4_of_last t h, after0_4]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The body at any point, by the point's tile: the input buffers hold their blocks, the scratch holds the
    accumulator of the points before (anything, before a tile 0), and the case's triple applies. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, Φ_eq, Φ_eq]
  rcases (by omega : t.val % 22 = 0 ∨ t.val % 22 = 21 ∨ (t.val % 22 ≠ 0 ∧ t.val % 22 ≠ 21)) with h0 | h21 | ⟨hn0, hn21⟩
  · -- a tile 0
    have hf : isFirst (grid0.coords t) := (first_iff t).2 h0
    have hl : ¬ k0_cond2 (grid0.coords t) = 1#1 := fun h => by have := (last_iff t).1 h; omega
    rw [(dats m 0 c).leavesExact_idle 4 t (idle4_of_not_last t hl) (flush4_false t (by omega))]
    iintro ⟨⟨%X, HS, %hX⟩, Ho, ⟨%d0, H0⟩, ⟨%d1, H1⟩, ⟨%d2, H2⟩, ⟨%d3, H3⟩, ⟨%d4, H4⟩⟩
    iapply (kernel_first c (grid0.coords t) _ _ _ _ _ _ _ _ _ _ scr (Memref.isWhole_whole _) hf hl
      (iblk m c 0 t) (iblk m c 1 t) (iblk m c 2 t) (iblk m c 3 t) ((dats m 0 c).before 4 t d4) X _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      rw [acc_succ, if_pos h0]
    isplitl [Ho]; · iexact Ho
    isplitl [H0]; · iexact H0
    isplitl [H1]; · iexact H1
    isplitl [H2]; · iexact H2
    isplitl [H3]; · iexact H3
    iexists d4; iexact H4
  · -- a tile 21
    have hf : ¬ isFirst (grid0.coords t) := fun h => by have := (first_iff t).1 h; omega
    have hl : k0_cond2 (grid0.coords t) = 1#1 := (last_iff t).2 h21
    rw [leaves4_last m c t hl]
    iintro ⟨⟨%X, HS, %hX⟩, Ho, ⟨%d0, H0⟩, ⟨%d1, H1⟩, ⟨%d2, H2⟩, ⟨%d3, H3⟩, ⟨%d4, H4⟩⟩
    have hXe : X = acc m c t.val := hX (by show t.val % 22 ≠ 0; omega)
    subst hXe
    have hnew : k0_pay2 (xblk m c t) (gblk m c t) (ublk m c t) (dblk m c t) (acc m c t.val) = acc m c (t.val + 1) := by
      rw [acc_succ, if_neg (by omega : ¬ t.val % 22 = 0)]
    iapply (kernel_last c (grid0.coords t) _ _ _ _ _ _ _ _ _ _ scr (Memref.isWhole_whole _) hf hl
      (iblk m c 0 t) (iblk m c 1 t) (iblk m c 2 t) (iblk m c 3 t) ((dats m 0 c).before 4 t d4) (acc m c t.val) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      exact hnew
    isplitl [Ho]; · iexact Ho
    isplitl [H0]; · iexact H0
    isplitl [H1]; · iexact H1
    isplitl [H2]; · iexact H2
    isplitl [H3]; · iexact H3
    rw [← hnew]; iexact H4
  · -- a tile between
    have hf : ¬ isFirst (grid0.coords t) := fun h => hn0 ((first_iff t).1 h)
    have hl : ¬ k0_cond2 (grid0.coords t) = 1#1 := fun h => hn21 ((last_iff t).1 h)
    rw [(dats m 0 c).leavesExact_idle 4 t (idle4_of_not_last t hl) (flush4_false t hn21)]
    iintro ⟨⟨%X, HS, %hX⟩, Ho, ⟨%d0, H0⟩, ⟨%d1, H1⟩, ⟨%d2, H2⟩, ⟨%d3, H3⟩, ⟨%d4, H4⟩⟩
    have hXe : X = acc m c t.val := hX hn0
    subst hXe
    iapply (kernel_mid c (grid0.coords t) _ _ _ _ _ _ _ _ _ _ scr (Memref.isWhole_whole _) hf hl
      (iblk m c 0 t) (iblk m c 1 t) (iblk m c 2 t) (iblk m c 3 t) ((dats m 0 c).before 4 t d4) (acc m c t.val) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists _; isplitl [HS]; · iexact HS
      ipureintro; intro _
      show _ = acc m c (t.val + 1)
      rw [acc_succ, if_neg hn0]
    isplitl [Ho]; · iexact Ho
    isplitl [H0]; · iexact H0
    isplitl [H1]; · iexact H1
    isplitl [H2]; · iexact H2
    isplitl [H3]; · iexact H3
    iexists d4; iexact H4

/-- The pipeline's body obligation, at every point. -/
theorem body_obligation (c : Dev nD) : BodyObligation (dats (F := F) m 0 c) (defs₀ (F := F)) 𝒱₀ () Set.univ := fun t => by
  rw [bigSep_W0, bigSep_W0]
  exact sound_body m c t

end Cert.KernelIdeal.Hand

end
-- ==== Proof.KI.Launch.lean ====
/-
  The launch: from the body's step at every grid point to the whole run.

  The region is handed the three argument arrays and the result array whole.  The projection matrix is read through
  two windows, so its points-to is split in two halves, one per window; every other array goes to its one window
  whole.  Nothing else of the core's unscoped memory exists, the scratch buffer is the core's one scoped buffer
  besides the staging buffers, and the kernel has no semaphore of its own.  The run ends with every window's array
  at what the write-backs left.
-/
import proofs.«178716_j7808250544398_1_alg».proof.Proof.KI.Data
import Idealize.ShloMosaic.Lib.Pipeline.Launch
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The windows' arrays as the region finds them: every array is a whole buffer, so window `w` holds all of its
    array's elements, at the window's share, at the launch contents. -/
theorem arrays_entry (c : Dev nD) :
    (dats m 0 c).arrays ((dats m 0 c).arrAt · 0)
      = bigSep Finset.univ fun w : Fin 5 =>
          (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The four distinct buffers behind the five windows, each whole at the full share, make the windows' holdings:
    the token matrix, the down matrix and the result go to their one window as they are; the projection matrix's
    full share is its left half and its right half, the gate window taking the one and the up window the other. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, bigSep_W0]
  unfold Pipeline.arrBufs
  rw [bigSep_eq_bigSepL_of_eq [main_arg0, main_arg1, main_arg2, main_v0] (by decide) (by decide)]
  show iprop((((c.tc : Thread nD τ).loc main_arg0) ↦{fullShare} V m c main_arg0)
        ∗ (((c.tc : Thread nD τ).loc main_arg1) ↦{fullShare} V m c main_arg1)
        ∗ (((c.tc : Thread nD τ).loc main_arg2) ↦{fullShare} V m c main_arg2)
        ∗ (((c.tc : Thread nD τ).loc main_v0) ↦{fullShare} V m c main_v0))
      ⊢ (iprop((((c.tc : Thread nD τ).loc main_arg0) ↦{fullShare} V m c main_arg0)
        ∗ (((c.tc : Thread nD τ).loc main_arg1) ↦{fullShare.left} V m c main_arg1)
        ∗ (((c.tc : Thread nD τ).loc main_arg1) ↦{fullShare.right} V m c main_arg1)
        ∗ (((c.tc : Thread nD τ).loc main_arg2) ↦{fullShare} V m c main_arg2)
        ∗ (((c.tc : Thread nD τ).loc main_v0) ↦{fullShare} V m c main_v0)) : sProp 𝕄)
  iintro ⟨H0, H1, H2, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  isplitl [H2]; · iexact H2
  iexact H3

/-- Before the first point the scratch buffer holds anything: the first point is a tile 0, where the invariant asks
    nothing of the contents. -/
theorem inv_entry (c : Dev nD) :
    iprop((emp : sProp 𝕄) ∗ Pipeline.scopedRest (Ix := Unit) (Name := ℕ) (U := UR sig nD τ) (Lvl := ℕ) (Val := Elt F) spec0 c)
      ⊢ (dats m 0 c).Φ 0 := by
  rw [scopedRest0_eq, Φ_eq]
  simp only [owns_whole]
  iintro ⟨-, ⟨%f, H⟩⟩
  iexists f
  isplitl [H]
  · iexact H
  · ipureintro; exact fun h => absurd rfl h

/-- After the last point the scratch buffer is handed back whole; what it holds is forgotten. -/
theorem inv_exit (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [scopedRest0_eq, Φ_eq]
  simp only [owns_whole]
  iintro ⟨%X, H, -⟩
  isplitr; · iempintro
  iexists X; iexact H

/-- THE RUN: every weakly fair execution of the program terminates, without a fault, with each window's array at
    the contents the write-backs leave. -/
theorem run_main (hb : ∀ c, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, ∀ w : Fin cfg0.W,
        r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ 𝒱₀ m ρ main
    (hbody := fun c => (hb c).loose) (hne := block_pos0) (harr := arr_whole0) (hstage := stage_whole0)
    (howed := fun _ _ => rfl)
    (u₀ := Rounds.initOf (Pipeline.cells cfgs cellOf_inj) (Pipeline.launchToks cfgs cellOf_inj)) (hu₀ := BI.Entails.refl _)
    (V := V m)
    (hmain := Pipeline.hmain_region cfgs 0 defs₀ 𝒱₀ m main fun c => (main_chain c).trans rfl)
    (hsplit := arrays_split m)
    (X := fun _ => iprop(emp)) (Y := fun _ => iprop(emp)) (Z := fun _ => iprop(emp))
    (hX := fun c => by rw [unscopedRest0_eq]; iintro -; isplitr <;> iempintro)
    (hin := inv_entry m)
    (hout := inv_exit m)
    (QY := fun _ _ => True)
    (hY := fun c s' => by
      iintro ⟨-, -, HSI⟩; imodintro
      isplitr; · ipureintro; trivial
      iexact HSI)
    (hQ := fun _ h c w => (h c).1 w)

end Cert.KernelIdeal.Hand

end
-- ==== Proof.KI.Frame.lean ====
/-
  The run of the whole program and its frame.

  From the body's step at every grid point and the launch: every weakly fair execution terminates, without a fault,
  with each window's array at what the write-backs left.  An input window's array is never written back to, so the
  three argument arrays end as they began (the projection matrix is read through two windows; either tells it).
-/
import proofs.«178716_j7808250544398_1_alg».proof.Proof.KI.Body
import proofs.«178716_j7808250544398_1_alg».proof.Proof.KI.Launch

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- THE RUN, with the body's step supplied. -/
theorem run : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  run_main m (body_obligation m) ρ

/-- THE FRAME: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run m ρ)

end Cert.KernelIdeal.Hand

end
-- ==== Proof.KI.Blocks.lean ====
/-
  The four input blocks of a grid point, read at an entry of their arrays.

  Point `t` is row block `t / 22` and tile `t % 22`.  The token block is rows `256·(t/22) …` of `x`; the gate block is
  rows `256·(t%22) …` of the projection matrix and the up block rows `5632 + 256·(t%22) …` of the same matrix; the down
  block is columns `256·(t%22) …` of the down matrix.  A block's entry is the array's entry at block index × block
  size + the coordinate inside the block, on each axis.
-/
import proofs.«178716_j7808250544398_1_alg».proof.Proof.KI.Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (c : Dev nD)

/-- The arrays as functions of a literal index type. -/
abbrev xarr : Vec F S8192x2048 .f32 := V m c main_arg0
abbrev warr : Vec F S11264x2048 .f32 := V m c main_arg1
abbrev darr : Vec F S2048x5632 .f32 := V m c main_arg2

theorem row_lt (t : Fin cfg0.N) (r : Fin 256) : 256 * (t.val / 22) + r.val < 8192 := by
  have := t.isLt; have h : cfg0.N = 704 := N_0; omega
theorem tile_lt (t : Fin cfg0.N) (j : Fin 256) : 256 * (t.val % 22) + j.val < 5632 := by
  have := Nat.mod_lt t.val (by decide : 0 < 22); omega
theorem gate_lt (t : Fin cfg0.N) (j : Fin 256) : 256 * (t.val % 22) + j.val < 11264 := by
  have := tile_lt t j; omega
theorem up_lt (t : Fin cfg0.N) (j : Fin 256) : 5632 + (256 * (t.val % 22) + j.val) < 11264 := by
  have := tile_lt t j; omega

/-- The index maps in closed form at each of the 704 grid points (a finite case check): the token window's block index
    is (row block, 0), the gate window's (tile, 0), the up window's (22 + tile, 0), the down window's (0, tile). -/
theorem idx_facts : ∀ t : Fin cfg0.N,
    win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = 22 + t.val % 22 ∧ win0_2.index t (1 : Fin 2) = 0
    ∧ win0_3.index t (0 : Fin 2) = 0 ∧ win0_3.index t (1 : Fin 2) = t.val % 22 :=
  (by decide +kernel : ∀ t : Fin grid0.N, _)

theorem xblk_at (t : Fin cfg0.N) (r : Fin 256) (h : Fin 2048) :
    xblk m c t (ix2 r h) = xarr m c (ix2 ⟨256 * (t.val / 22) + r.val, row_lt t r⟩ h) := by
  obtain ⟨e0, e1, -⟩ := idx_facts t
  show V m c main_arg0 (((cfg0.win 0).blk t).view.emb (ix2 r h)) = V m c main_arg0 _
  congr 1
  funext a; apply Fin.ext
  match a with
  | ⟨0, _⟩ => show win0_0.index t (0 : Fin 2) * 256 + 1 * r.val = 256 * (t.val / 22) + r.val; omega
  | ⟨1, _⟩ => show win0_0.index t (1 : Fin 2) * 2048 + 1 * h.val = h.val; omega
theorem gblk_at (t : Fin cfg0.N) (j : Fin 256) (h : Fin 2048) :
    gblk m c t (ix2 j h) = warr m c (ix2 ⟨256 * (t.val % 22) + j.val, gate_lt t j⟩ h) := by
  obtain ⟨-, -, e0, e1, -⟩ := idx_facts t
  show V m c main_arg1 (((cfg0.win 1).blk t).view.emb (ix2 j h)) = V m c main_arg1 _
  congr 1
  funext a; apply Fin.ext
  match a with
  | ⟨0, _⟩ => show win0_1.index t (0 : Fin 2) * 256 + 1 * j.val = 256 * (t.val % 22) + j.val; omega
  | ⟨1, _⟩ => show win0_1.index t (1 : Fin 2) * 2048 + 1 * h.val = h.val; omega
theorem ublk_at (t : Fin cfg0.N) (j : Fin 256) (h : Fin 2048) :
    ublk m c t (ix2 j h) = warr m c (ix2 ⟨5632 + (256 * (t.val % 22) + j.val), up_lt t j⟩ h) := by
  obtain ⟨-, -, -, -, e0, e1, -⟩ := idx_facts t
  show V m c main_arg1 (((cfg0.win 2).blk t).view.emb (ix2 j h)) = V m c main_arg1 _
  congr 1
  funext a; apply Fin.ext
  match a with
  | ⟨0, _⟩ => show win0_2.index t (0 : Fin 2) * 256 + 1 * j.val = 5632 + (256 * (t.val % 22) + j.val); omega
  | ⟨1, _⟩ => show win0_2.index t (1 : Fin 2) * 2048 + 1 * h.val = h.val; omega
theorem dblk_at (t : Fin cfg0.N) (o : Fin 2048) (j : Fin 256) :
    dblk m c t (ix2 o j) = darr m c (ix2 o ⟨256 * (t.val % 22) + j.val, tile_lt t j⟩) := by
  obtain ⟨-, -, -, -, -, -, e0, e1⟩ := idx_facts t
  show V m c main_arg2 (((cfg0.win 3).blk t).view.emb (ix2 o j)) = V m c main_arg2 _
  congr 1
  funext a; apply Fin.ext
  match a with
  | ⟨0, _⟩ => show win0_3.index t (0 : Fin 2) * 2048 + 1 * o.val = o.val; omega
  | ⟨1, _⟩ => show win0_3.index t (1 : Fin 2) * 256 + 1 * j.val = 256 * (t.val % 22) + j.val; omega

end Cert.KernelIdeal.Hand

end
-- ==== Proof.LibMatmulRowsAt.lean ====
/-
  A product of rows against rows, read at an entry, at the ideal values.

  For dimension numbers that contract the SECOND axis of both operands, with no batch axis —
  `[M, K] · [N, K] → [M, N]`, the right operand used transposed — the product into a zero accumulator has, at row
  `o` and column `t`, the entry `∑ c, A[o, c] · B[t, c]`: the inner product of row `o` of `A` with row `t` of `B`.
  The contraction's index set has one axis; the sum over it is re-indexed by that axis's coordinate.
-/
import Idealize.ShloMosaic.PureOps.Ideal.Laws
import Idealize.ShloMosaic.Lib.ValueIdx

noncomputable section

open scoped BigOperators

namespace Cert.LibMatmulRowsAt

open Idealize.ShloMosaic Idealize.ShloMosaic.ValueIdx

variable {M K N : ℕ} (D : DotDims ⟨2, ![M, K]⟩ ⟨2, ![N, K]⟩ ⟨2, ![M, N]⟩)

/-- An index read at two spellings of one axis number gives one coordinate. -/
theorem coord_of_eq {s : Shape} (i : s.Idx) (p q : ℕ) (hp : p < s.rank) (hq : q < s.rank) (h : p = q) :
    (i ⟨p, hp⟩).val = (i ⟨q, hq⟩).val := by subst h; rfl

/-- The left operand's kept axis is the result's first axis. -/
theorem lhs_kept (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_of_eq i _ _ _ _ (by simp [hb, hn])

/-- The right operand's kept axis — its FIRST — is the result's second axis. -/
theorem rhs_kept (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_of_eq i _ _ _ _ (by simp [hn, hlb, hln])

/-- One axis is contracted, -/
theorem contr_rank (hc : D.lhsContracting = [1]) : D.contr.rank = 1 := by rw [D.rank_contr, hc]; rfl

/-- of extent `K`. -/
theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY: row `o` of the left operand against row `t` of the right. -/
theorem matmul_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_kept D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_kept D hrb hlb hln hrn _ _
      | ⟨1, _⟩ => exact (D.rhsIdx_val_of_single hrc _ _).trans hk)
  rw [el, er]

end Cert.LibMatmulRowsAt

end
-- ==== Proof.KI.Payload.lean ====
/-
  The body's arithmetic at one entry, at the ideal values.

  `k0_pay2 x g u d a` is the accumulator `a` plus the tile's contribution: with `G = x · gᵀ` and `U = x · uᵀ` (256 by 256,
  each entry an inner product over the 2048 model coordinates), the activation `H = G · logistic G · U` entry by
  entry, and the contribution `H · dᵀ` (256 by 2048, each entry an inner product over the tile's 256 hidden units).
  The changes of float format in between are the identity on the extended reals, and a matrix product into the
  zero matrix is the plain sum of products.  `k0_pay1` is the zero matrix.
-/
import proofs.«178716_j7808250544398_1_alg».proof.Proof.Gen.KernelIdeal.Skeleton
import proofs.«178716_j7808250544398_1_alg».proof.Proof.LibMatmulRowsAt
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-- A product of rows against rows, both operands first taken to a narrower format (the identity on the extended
    reals), into the zero matrix: at row `o` and column `t` the inner product of row `o` with row `t`. -/
theorem rows_at {M K N : ℕ} (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (A : FVec Ideal ⟨2, ![M, K]⟩ .f32) (B : FVec Ideal ⟨2, ![N, K]⟩ .f32)
    (hA hB : FTy.bf16.bits < FTy.f32.bits) (o : Fin M) (t : Fin N) :
    matmul (F := Ideal) D none (truncf .bf16 A hA) (truncf .bf16 B hB) (constant ⟨2, ![M, N]⟩ .f32 0x00000000#32) (ix2 o t)
      = ∑ c : Fin K, A (ix2 o c) * B (ix2 t c) :=
  Cert.LibMatmulRowsAt.matmul_zero_at D hlc hrc hlb hrb hln hrn none _ _ o t

/-- The accumulator starts at zero. -/
theorem pay1_at (i : S256x2048.Idx) : k0_pay1 (F := Ideal) i = (0 : EReal) := by
  unfold k0_pay1
  rw [shapeCast_self]
  exact Ideal.ofBits_zero_f32

/-- One tile's update of the accumulator, at entry `[r, o]`. -/
theorem pay2_at (x0 x1 x2 : Vec Ideal S256x2048 .f32) (x3 : Vec Ideal S2048x256 .f32) (a : Vec Ideal S256x2048 .f32)
    (r : Fin 256) (o : Fin 2048) :
    k0_pay2 (F := Ideal) x0 x1 x2 x3 a (ix2 r o)
      = a (ix2 r o) + ∑ j : Fin 256,
          ((∑ h : Fin 2048, x0 (ix2 r h) * x1 (ix2 j h)) * Ideal.logistic (∑ h : Fin 2048, x0 (ix2 r h) * x1 (ix2 j h))
            * (∑ h : Fin 2048, x0 (ix2 r h) * x2 (ix2 j h))) * x3 (ix2 o j) := by
  unfold k0_pay2
  rw [shapeCast_self]
  -- the outer product `H · dᵀ` at `[r, o]` is the sum over the tile's hidden units `j` of `H[r, j] · d[o, j]`
  refine (congrArg (a (ix2 r o) + ·) (rows_at dot_S256x256_S2048x256_S256x2048_1_1_0_0_n_n rfl rfl rfl rfl rfl rfl _ x3 _ _ r o)).trans ?_
  refine congrArg (a (ix2 r o) + ·) (Finset.sum_congr rfl fun j _ => congrArg (· * x3 (ix2 o j)) ?_)
  -- `H[r, j] = G[r, j] · logistic G[r, j] · U[r, j]`, each of `G[r, j]`, `U[r, j]` an inner product over the 2048 coordinates
  have hG := rows_at dot_S256x2048_S256x2048_S256x256_1_1_0_0_n_n rfl rfl rfl rfl rfl rfl x0 x1 bitsLt_bf16_f32 bitsLt_bf16_f32 r j
  have hU := rows_at dot_S256x2048_S256x2048_S256x256_1_1_0_0_n_n rfl rfl rfl rfl rfl rfl x0 x2 bitsLt_bf16_f32 bitsLt_bf16_f32 r j
  exact congrArg₂ (· * ·) (congrArg₂ (· * ·) hG (congrArg Ideal.logistic hG)) hU

end Cert.KernelIdeal.Hand

end
-- ==== Proof.Spec.lean ====
/-
  The fused SwiGLU expert as one function of its three arrays, over the extended reals.

  With `x : [8192, 2048]` the tokens, `w : [11264, 2048]` the projection matrix (rows `0 … 5631` the gate rows, rows
  `5632 … 11263` the up rows) and `wd : [2048, 5632]` the down matrix,

      proj t j   = ∑ h, x[t, h] · w[j, h]                                   (a token against one projection row)
      hidden t i = proj t i · logistic (proj t i) · proj t (5632 + i)        (silu of the gate, times the up)
      G[t, o]    = ∑ i < 5632, hidden t i · wd[o, i].

  The hidden axis is also cut into 22 tiles of 256: `tileTerm t o n` is tile `n`'s part of the last sum, and
  `partialSum t o n` adds the first `n` tiles' parts, one after the other, to zero; after all 22 it is `G[t, o]`
  (`partialSum_all`): a sum over `i < 5632` is the sum over the tiles of the sums inside each tile, addition on the
  extended reals being commutative and associative.
-/
import Idealize.ShloMosaic.PureOps.Ideal
import Idealize.ShloMosaic.Lib.ValueIdx

noncomputable section

open scoped BigOperators

namespace Cert.Swiglu

open Idealize.ShloMosaic Idealize.ShloMosaic.ValueIdx

abbrev SX : Shape := ⟨2, ![8192, 2048]⟩
abbrev SW : Shape := ⟨2, ![11264, 2048]⟩
abbrev SD : Shape := ⟨2, ![2048, 5632]⟩

/-- Token `t` against row `j` of the projection matrix. -/
def proj (x : SX.Idx → EReal) (w : SW.Idx → EReal) (t : Fin 8192) (j : Fin 11264) : EReal :=
  ∑ h : Fin 2048, x (ix2 t h) * w (ix2 j h)

/-- Hidden unit `i`'s gate row and up row in the projection matrix. -/
def gateRow (i : Fin 5632) : Fin 11264 := ⟨i.val, by omega⟩
def upRow (i : Fin 5632) : Fin 11264 := ⟨5632 + i.val, by omega⟩

/-- The hidden activation: silu of the gate projection, times the up projection. -/
def hidden (x : SX.Idx → EReal) (w : SW.Idx → EReal) (t : Fin 8192) (i : Fin 5632) : EReal :=
  proj x w t (gateRow i) * Ideal.logistic (proj x w t (gateRow i)) * proj x w t (upRow i)

/-- The expert's output. -/
def G (x : SX.Idx → EReal) (w : SW.Idx → EReal) (wd : SD.Idx → EReal) : SX.Idx → EReal :=
  fun o => ∑ i : Fin 5632, hidden x w (o 0) i * wd (ix2 (o 1) i)

/-- Hidden unit `j` of tile `n`. -/
def tileCol (n : Fin 22) (j : Fin 256) : Fin 5632 := ⟨256 * n.val + j.val, by omega⟩

/-- Tile `n`'s part of output entry `[t, o]`. -/
def tileTerm (x : SX.Idx → EReal) (w : SW.Idx → EReal) (wd : SD.Idx → EReal) (t : Fin 8192) (o : Fin 2048) (n : Fin 22) : EReal :=
  ∑ j : Fin 256, hidden x w t (tileCol n j) * wd (ix2 o (tileCol n j))

/-- The first `n` tiles' parts added, in order, to zero. -/
def partialSum (x : SX.Idx → EReal) (w : SW.Idx → EReal) (wd : SD.Idx → EReal) (t : Fin 8192) (o : Fin 2048) : ℕ → EReal
  | 0 => 0
  | n + 1 => partialSum x w wd t o n + (if h : n < 22 then tileTerm x w wd t o ⟨n, h⟩ else 0)

/-- Adding the first `n` tiles' parts in order is the sum of those parts over `k < n`. -/
theorem partialSum_eq_sum_range (x : SX.Idx → EReal) (w : SW.Idx → EReal) (wd : SD.Idx → EReal) (t : Fin 8192) (o : Fin 2048)
    (n : ℕ) :
    partialSum x w wd t o n
      = ∑ k ∈ Finset.range n, (if h : k < 22 then tileTerm x w wd t o ⟨k, h⟩ else 0) := by
  induction n with
  | zero => simp [partialSum]
  | succ n ih => rw [partialSum, ih, Finset.sum_range_succ]

/-- The pair (tile, place in the tile) numbers the hidden units: `(n, j) ↦ 256 · n + j` is a bijection onto `i < 5632`. -/
def tileEquiv : Fin 22 × Fin 256 ≃ Fin 5632 :=
  (finProdFinEquiv (m := 22) (n := 256)).trans (finCongr (by norm_num))

theorem tileEquiv_apply (n : Fin 22) (j : Fin 256) : tileEquiv (n, j) = tileCol n j := by
  apply Fin.ext
  simp only [tileEquiv, tileCol, Equiv.trans_apply, finProdFinEquiv_apply_val, finCongr_apply, Fin.coe_cast]
  omega

/-- A sum over the hidden units is the sum over the tiles of the sums inside each tile. -/
theorem sum_tiles (f : Fin 5632 → EReal) :
    ∑ n : Fin 22, ∑ j : Fin 256, f (tileCol n j) = ∑ i : Fin 5632, f i := by
  rw [← Fintype.sum_prod_type (f := fun p : Fin 22 × Fin 256 => f (tileCol p.1 p.2))]
  exact Fintype.sum_equiv tileEquiv _ _ (fun p => by rw [← tileEquiv_apply])

/-- All 22 tiles' parts make up the output entry. -/
theorem partialSum_all (x : SX.Idx → EReal) (w : SW.Idx → EReal) (wd : SD.Idx → EReal) (t : Fin 8192) (o : Fin 2048) :
    partialSum x w wd t o 22 = G x w wd (ix2 t o) := by
  rw [partialSum_eq_sum_range, Finset.sum_range]
  have hterm : ∀ n : Fin 22,
      (if h : n.val < 22 then tileTerm x w wd t o ⟨n.val, h⟩ else 0) = tileTerm x w wd t o n := fun n => by
    rw [dif_pos n.isLt]
  rw [Finset.sum_congr rfl (fun n _ => hterm n)]
  exact sum_tiles (fun i => hidden x w t i * wd (ix2 o i))

end Cert.Swiglu

end
-- ==== Proof.KI.AccValue.lean ====
/-
  What the accumulator holds, and what the result array ends with.

  Within row block `b`, after `n ≥ 1` of its tiles the accumulator's entry `[r, o]` is the sum of the first `n` tiles'
  parts of output entry `[256·b + r, o]` (induction on `n`: a tile 0 adds its part to zero, a later tile to what the
  tile before left).  The result's block `b` is written back once, after tile 21, with the accumulator after all 22
  tiles, which is the output's rows `256·b …`; the 32 blocks cover the array.
-/
import proofs.«178716_j7808250544398_1_alg».proof.Proof.KI.Data
import proofs.«178716_j7808250544398_1_alg».proof.Proof.KI.Blocks
import proofs.«178716_j7808250544398_1_alg».proof.Proof.KI.Payload
import proofs.«178716_j7808250544398_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

theorem brow_lt (b : Fin 32) (r : Fin 256) : 256 * b.val + r.val < 8192 := by omega

/-- A tile's contribution computed from the four blocks of a point of row block `b`, tile `n`, is the tile's part of
    output entry `[256·b + r, o]`: the point's blocks are rows `256·b …` of the tokens, rows `256·n …` and
    `5632 + 256·n …` of the projection matrix and columns `256·n …` of the down matrix. -/
theorem tile_blocks (t : Fin cfg0.N) (b : Fin 32) (n : Fin 22) (ht : t.val = 22 * b.val + n.val)
    (r : Fin 256) (o : Fin 2048) :
    (∑ j : Fin 256,
          ((∑ h : Fin 2048, xblk m c t (ix2 r h) * gblk m c t (ix2 j h))
            * Ideal.logistic (∑ h : Fin 2048, xblk m c t (ix2 r h) * gblk m c t (ix2 j h))
            * (∑ h : Fin 2048, xblk m c t (ix2 r h) * ublk m c t (ix2 j h))) * dblk m c t (ix2 o j))
      = Cert.Swiglu.tileTerm (xarr m c) (warr m c) (darr m c) ⟨256 * b.val + r.val, brow_lt b r⟩ o n := by
  have hq : t.val / 22 = b.val := by have := n.isLt; omega
  have hr : t.val % 22 = n.val := by have := n.isLt; omega
  have e1 : (⟨256 * (t.val / 22) + r.val, row_lt t r⟩ : Fin 8192) = ⟨256 * b.val + r.val, brow_lt b r⟩ :=
    Fin.ext (by show 256 * (t.val / 22) + r.val = 256 * b.val + r.val; omega)
  have e2 : ∀ j : Fin 256, (⟨256 * (t.val % 22) + j.val, gate_lt t j⟩ : Fin 11264)
      = Cert.Swiglu.gateRow (Cert.Swiglu.tileCol n j) := fun j =>
    Fin.ext (by show 256 * (t.val % 22) + j.val = 256 * n.val + j.val; omega)
  have e3 : ∀ j : Fin 256, (⟨5632 + (256 * (t.val % 22) + j.val), up_lt t j⟩ : Fin 11264)
      = Cert.Swiglu.upRow (Cert.Swiglu.tileCol n j) := fun j =>
    Fin.ext (by show 5632 + (256 * (t.val % 22) + j.val) = 5632 + (256 * n.val + j.val); omega)
  have e4 : ∀ j : Fin 256, (⟨256 * (t.val % 22) + j.val, tile_lt t j⟩ : Fin 5632) = Cert.Swiglu.tileCol n j := fun j =>
    Fin.ext (by show 256 * (t.val % 22) + j.val = 256 * n.val + j.val; omega)
  unfold Cert.Swiglu.tileTerm Cert.Swiglu.hidden Cert.Swiglu.proj
  refine Finset.sum_congr rfl fun j _ => ?_
  simp only [xblk_at, gblk_at, ublk_at, dblk_at, e1, e2 j, e3 j, e4 j]

/-- One tile's update of the accumulator at such a point: the accumulator's entry plus the tile's part. -/
theorem pay2_blocks (t : Fin cfg0.N) (b : Fin 32) (n : Fin 22) (ht : t.val = 22 * b.val + n.val)
    (a : Vec Ideal S256x2048 .f32) (r : Fin 256) (o : Fin 2048) :
    k0_pay2 (F := Ideal) (xblk m c t) (gblk m c t) (ublk m c t) (dblk m c t) a (ix2 r o)
      = a (ix2 r o)
        + Cert.Swiglu.tileTerm (xarr m c) (warr m c) (darr m c) ⟨256 * b.val + r.val, brow_lt b r⟩ o n := by
  rw [pay2_at, tile_blocks m c t b n ht r o]

/-- The accumulator inside row block `b`, after `n` of its tiles. -/
theorem acc_at (b : Fin 32) (n : ℕ) (hn1 : 1 ≤ n) (hn : n ≤ 22) (r : Fin 256) (o : Fin 2048) :
    acc m c (22 * b.val + n) (ix2 r o)
      = Cert.Swiglu.partialSum (xarr m c) (warr m c) (darr m c) ⟨256 * b.val + r.val, brow_lt b r⟩ o n := by
  induction n with
  | zero => omega
  | succ k ih =>
    have hk : k < 22 := by omega
    have hN : 22 * b.val + k < cfg0.N := by rw [show cfg0.N = 704 from N_0]; omega
    have hs := acc_succ m c ⟨22 * b.val + k, hN⟩
    have hs' : acc m c (22 * b.val + (k + 1)) = _ := hs
    rw [hs', pay2_blocks m c ⟨22 * b.val + k, hN⟩ b ⟨k, hk⟩ rfl, Cert.Swiglu.partialSum.eq_2, dif_pos hk]
    congr 1
    by_cases hk0 : k = 0
    · subst hk0
      rw [if_pos (show (22 * b.val + 0) % 22 = 0 by omega), pay1_at]
      rfl
    · rw [if_neg (show ¬(22 * b.val + k) % 22 = 0 by omega)]
      exact ih (by omega) (by omega)

/-- The result window's block index in closed form at each of the 704 grid points (a finite case check):
    (row block, 0). -/
theorem out_idx : ∀ t : Fin cfg0.N, win0_4.index t (0 : Fin 2) = t.val / 22 ∧ win0_4.index t (1 : Fin 2) = 0 :=
  (by decide +kernel : ∀ t : Fin grid0.N, _)

/-- After a tile 21 the accumulator is the output's rows `256·(t/22) …`: all 22 tiles' parts have been added. -/
theorem acc_row (t : Fin cfg0.N) (ht : t.val % 22 = 21) (hb : t.val / 22 < 32) (r : Fin 256) (o : Fin 2048) :
    acc m c (t.val + 1) (ix2 r o)
      = Cert.Swiglu.G (xarr m c) (warr m c) (darr m c)
          (ix2 ⟨256 * (t.val / 22) + r.val, brow_lt ⟨t.val / 22, hb⟩ r⟩ o) := by
  have h := acc_at m c ⟨t.val / 22, hb⟩ 22 (by omega) (le_refl _) r o
  rw [Cert.Swiglu.partialSum_all] at h
  have hpt : 22 * (t.val / 22) + 22 = t.val + 1 := by omega
  rw [← hpt]
  exact h

/-- What a tile 21 writes back is its block of the expert's output. -/
theorem flushed4_eq (t : Fin cfg0.N) (hf : (cfg0.win 4).flush t = true) :
    (dats (F := Ideal) m 0 c).flushed 4 t
      = ((cfg0.win 4).blk t).view.read (Elt Ideal) (Cert.Swiglu.G (xarr m c) (warr m c) (darr m c)) := by
  have ht : t.val % 22 = 21 := (flush0_4 t).mp hf
  have hb : t.val / 22 < 32 := by have := t.isLt; have hN : cfg0.N = 704 := N_0; omega
  obtain ⟨e0, e1⟩ := out_idx t
  show (cfg0.win 4).cut (grid0.coords t) ((dats m 0 c).after 4 t) = _
  rw [after0_4]
  funext y
  have hx : (cfg0.win 4).xinj (grid0.coords t) y = ix2 (n0 := 256) (n1 := 2048) (y 0) (y 1) := by
    funext a
    match a with
    | ⟨0, _⟩ => rfl
    | ⟨1, _⟩ => rfl
  show acc m c (t.val + 1) ((cfg0.win 4).xinj (grid0.coords t) y)
    = Cert.Swiglu.G (xarr m c) (warr m c) (darr m c) (((cfg0.win 4).blk t).view.emb y)
  rw [hx]
  refine (acc_row m c t ht hb (y 0) (y 1)).trans ?_
  refine congrArg (Cert.Swiglu.G (xarr m c) (warr m c) (darr m c)) ?_
  funext a; apply Fin.ext
  match a with
  | ⟨0, _⟩ => show 256 * (t.val / 22) + (y 0).val = win0_4.index t (0 : Fin 2) * 256 + 1 * (y 0).val; omega
  | ⟨1, _⟩ => show (y 1).val = win0_4.index t (1 : Fin 2) * 2048 + 1 * (y 1).val; omega

/-- An index of the result array is in point `t`'s block iff each coordinate is in the block's range on its axis. -/
theorem mem_blk4 (t : Fin cfg0.N) (i : S8192x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v0).slice (win0_4.rect t)).set ↔ _
  rw [View.set_slice_whole, Rect.mem_set_unit]
  exact Iff.rfl

/-- The result array after the run is the expert's output of the three argument arrays: every row `ρ` lies in the
    block written back after tile 21 of row block `ρ / 256`. -/
theorem final4 : (dats (F := Ideal) m 0 c).arrAt 4 cfg0.N = Cert.Swiglu.G (xarr m c) (warr m c) (darr m c) := by
  refine (dats (F := Ideal) m 0 c).arrAt_eq_of_cover 4 (Cert.Swiglu.G (xarr m c) (warr m c) (darr m c))
    (fun t hf => flushed4_eq m c t hf) fun i => ?_
  have hi0 : (i 0).val < 8192 := (i 0).isLt
  have hi1 : (i 1).val < 2048 := (i 1).isLt
  have hN : 22 * ((i 0).val / 256) + 21 < cfg0.N := by rw [show cfg0.N = 704 from N_0]; omega
  have e0 : win0_4.index ⟨22 * ((i 0).val / 256) + 21, hN⟩ (0 : Fin 2) = (22 * ((i 0).val / 256) + 21) / 22 :=
    (out_idx ⟨_, hN⟩).1
  have e1 : win0_4.index ⟨22 * ((i 0).val / 256) + 21, hN⟩ (1 : Fin 2) = 0 := (out_idx ⟨_, hN⟩).2
  refine ⟨⟨22 * ((i 0).val / 256) + 21, hN⟩,
    (flush0_4 _).mpr (show (22 * ((i 0).val / 256) + 21) % 22 = 21 by omega), ?_⟩
  rw [mem_blk4]
  intro a
  match a with
  | ⟨0, _⟩ =>
    show win0_4.index ⟨22 * ((i 0).val / 256) + 21, hN⟩ (0 : Fin 2) * 256 ≤ (i 0).val
      ∧ (i 0).val < win0_4.index ⟨22 * ((i 0).val / 256) + 21, hN⟩ (0 : Fin 2) * 256 + 256
    omega
  | ⟨1, _⟩ =>
    show win0_4.index ⟨22 * ((i 0).val / 256) + 21, hN⟩ (1 : Fin 2) * 2048 ≤ (i 1).val
      ∧ (i 1).val < win0_4.index ⟨22 * ((i 0).val / 256) + 21, hN⟩ (1 : Fin 2) * 2048 + 2048
    omega

end Cert.KernelIdeal.Hand

end
-- ==== Proof.KI.Value.lean ====
/-
  The idealized kernel's result.

  At the ideal values the result array ends holding the expert's output function of the three argument arrays
  (the accumulated tiles of every row block, written back once each), and the argument arrays end unchanged.
-/
import proofs.«178716_j7808250544398_1_alg».proof.Proof.KI.Frame
import proofs.«178716_j7808250544398_1_alg».proof.Proof.KI.AccValue

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable (m : (ℓ : Loc nD τ sig) → Buf (Elt Ideal) ℓ) (ρ : Dev nD → PrngReg)

/-- The run at the ideal values, the result named. -/
theorem value : θ_run defs (onTc (τ := τ) (main (F := Ideal))) ⟨m, fun _ => 0, ρ⟩ (fun r => ∀ c : Dev nD,
      r.2.mem ((c.tc : Thread nD τ).loc main_v0) = Cert.Swiglu.G (xarr m c) (warr m c) (darr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 4).trans (final4 m c),
     (h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run m ρ)

end Cert.KernelIdeal.Hand

end
-- ==== Proof.RefValue.lean ====
/-
  The reference, index by index, is the expert's output function.

  The reference multiplies the tokens by the whole projection matrix, cuts the product into its gate half (columns
  `0 … 5631`) and its up half (columns `5632 …`), forms `gate · (1 / (1 + exp (−gate))) · up` and multiplies by the down
  matrix.  On the extended reals `1 / (1 + exp (−z))` is `logistic z` by definition.
-/
import proofs.«178716_j7808250544398_1_alg».proof.Proof.Gen.ReferenceIdeal.Read
import proofs.«178716_j7808250544398_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The word `0x3F800000` is the f32 pattern of `1.0`, which denotes the extended real `1`. -/
theorem ofBits_one : Ideal.ofBits .f32 0x3F800000#32 = 1 := IdealRules.sign_bit.ideal_onePat .f32

/-- The first product at `[t, j]` is token `t` against projection row `j`. -/
theorem v0_eq_proj (x0 : (⟨S8192x2048, .f32⟩ : BufTy).Contents (Elt Ideal)) (x1 : (⟨S11264x2048, .f32⟩ : BufTy).Contents (Elt Ideal))
    (t : Fin 8192) (j : Fin 11264) :
    val_main_v0 (F := Ideal) x0 x1 (ix2 t j) = Cert.Swiglu.proj x0 x1 t j := by
  rw [val_main_v0_apply]
  unfold Cert.Swiglu.proj
  refine Finset.sum_congr rfl fun h _ => ?_
  have el : lidx_main_v0 (ix2 t j) h = ix2 t h :=
    funext fun a => Fin.ext (by match a with | ⟨0, _⟩ => rfl | ⟨1, _⟩ => rfl)
  have er : ridx_main_v0 (ix2 t j) h = ix2 j h :=
    funext fun a => Fin.ext (by match a with | ⟨0, _⟩ => rfl | ⟨1, _⟩ => rfl)
  rw [el, er]

/-- The gate half at `[t, i]` is token `t` against gate row `i`. -/
theorem v1_eq_proj (x0 : (⟨S8192x2048, .f32⟩ : BufTy).Contents (Elt Ideal)) (x1 : (⟨S11264x2048, .f32⟩ : BufTy).Contents (Elt Ideal))
    (t : Fin 8192) (i : Fin 5632) :
    val_main_v1 (F := Ideal) x0 x1 (ix2 t i) = Cert.Swiglu.proj x0 x1 t (Cert.Swiglu.gateRow i) := by
  rw [val_main_v1_apply, ← v0_eq_proj]
  congr 1
  exact funext fun a => Fin.ext (by match a with | ⟨0, _⟩ => rfl | ⟨1, _⟩ => rfl)

/-- The up half at `[t, i]` is token `t` against up row `5632 + i`. -/
theorem v2_eq_proj (x0 : (⟨S8192x2048, .f32⟩ : BufTy).Contents (Elt Ideal)) (x1 : (⟨S11264x2048, .f32⟩ : BufTy).Contents (Elt Ideal))
    (t : Fin 8192) (i : Fin 5632) :
    val_main_v2 (F := Ideal) x0 x1 (ix2 t i) = Cert.Swiglu.proj x0 x1 t (Cert.Swiglu.upRow i) := by
  rw [val_main_v2_apply, ← v0_eq_proj]
  congr 1
  exact funext fun a => Fin.ext (by match a with | ⟨0, _⟩ => rfl | ⟨1, _⟩ => rfl)

/-- The product of the three factors at `[t, i]` is the hidden activation: the middle factor `1 / (1 + exp (−gate))` is
    the logistic function of the gate by definition. -/
theorem v4_eq_hidden (x0 : (⟨S8192x2048, .f32⟩ : BufTy).Contents (Elt Ideal)) (x1 : (⟨S11264x2048, .f32⟩ : BufTy).Contents (Elt Ideal))
    (t : Fin 8192) (i : Fin 5632) :
    val_main_v4 (F := Ideal) x0 x1 (ix2 t i) = Cert.Swiglu.hidden x0 x1 t i := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, v1_eq_proj, v2_eq_proj]
  simp only [Ideal.hostDivf_def, Ideal.hostUnary_exp_def, Ideal.hostNegf_def, Ideal.negf_def, Ideal.addf_def, Ideal.mulf_def,
    Ideal.ofBits_def, ofBits_one]
  rfl

theorem ref_eq_G (x0 : (⟨S8192x2048, .f32⟩ : BufTy).Contents (Elt Ideal)) (x1 : (⟨S11264x2048, .f32⟩ : BufTy).Contents (Elt Ideal))
    (x2 : (⟨S2048x5632, .f32⟩ : BufTy).Contents (Elt Ideal)) :
    val_main_v5 (F := Ideal) x0 x1 x2 = Cert.Swiglu.G x0 x1 x2 := by
  funext i
  obtain ⟨t, o, rfl⟩ : ∃ t o, i = ix2 t o := ⟨i 0, i 1, eq_ix2 i⟩
  rw [val_main_v5_apply]
  unfold Cert.Swiglu.G
  refine Finset.sum_congr rfl fun k _ => ?_
  have el : lidx_main_v5 (ix2 t o) k = ix2 t k :=
    funext fun a => Fin.ext (by match a with | ⟨0, _⟩ => rfl | ⟨1, _⟩ => rfl)
  have er : ridx_main_v5 (ix2 t o) k = ix2 o k :=
    funext fun a => Fin.ext (by match a with | ⟨0, _⟩ => rfl | ⟨1, _⟩ => rfl)
  rw [el, er, v4_eq_hidden]

end Cert.ReferenceIdeal.RefValue

end
-- ==== Proof.lean ====
/-
  The certificate of the fused SwiGLU expert kernel against its reference.

  Both programs compute, for tokens `x`, projection matrix `w` (gate rows, then up rows) and down matrix `wd`,
  `out[t, o] = ∑ i, (g · logistic g · u) · wd[o, i]` with `g = ∑ h, x[t, h] · w[i, h]` and `u = ∑ h, x[t, h] · w[5632 + i, h]`.
  The kernel walks 32 row blocks by 22 tiles of the hidden axis, adding each tile's part to an accumulator that it
  zeroes at the first tile and writes to the result at the last; the reference does the two matrix products whole
  and spells `logistic g` as `1 / (1 + exp (−g))`.  On the extended reals the changes of float format are the
  identity, the two spellings of the logistic are one function by definition, and the tiled sum is a regrouping of
  the whole sum in a commutative monoid; the precondition's finiteness is not needed.

  * the word-level kernel's frame and the idealized kernel's frame: the body's step at every grid point, carried by
    the pipeline's launch (the projection matrix, read through two windows, split in halves between them);
  * the reference's frame: its run, the result dropped;
  * the idealization rewrote nothing, so there is nothing to preserve;
  * the two idealized programs end with the same result: the kernel's result array is the output function of the
    argument arrays, and so is the reference's composed term, index by index.
-/
import proofs.«178716_j7808250544398_1_alg».proof.Defs
import proofs.«178716_j7808250544398_1_alg».proof.Proof.Gen.Kernel
import proofs.«178716_j7808250544398_1_alg».proof.Proof.Gen.KernelIdeal
import proofs.«178716_j7808250544398_1_alg».proof.Proof.Gen.ReferenceIdeal
import proofs.«178716_j7808250544398_1_alg».proof.Proof.Gen.Pre_finite_inputs
import proofs.«178716_j7808250544398_1_alg».proof.Proof.Gen.ReferenceIdeal.Run
import proofs.«178716_j7808250544398_1_alg».proof.Proof.Gen.ReferenceIdeal.Read
import proofs.«178716_j7808250544398_1_alg».proof.Proof.K.Frame
import proofs.«178716_j7808250544398_1_alg».proof.Proof.KI.Frame
import proofs.«178716_j7808250544398_1_alg».proof.Proof.KI.Value
import proofs.«178716_j7808250544398_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's result array and the reference's both end at the output function of
    those arguments. -/
theorem algebraic : Cert.algebraic_KernelIdeal_ReferenceIdeal := by
  intro m ρ m' ρ' _ hagree
  refine ⟨fun c => Cert.Swiglu.G (Cert.KernelIdeal.Hand.xarr m c) (Cert.KernelIdeal.Hand.warr m c) (Cert.KernelIdeal.Hand.darr m c),
    Cert.KernelIdeal.Hand.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
